-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x55 : Shape := ⟨2, ![131072, 55]⟩
abbrev S131072x10 : Shape := ⟨2, ![131072, 10]⟩
abbrev S55x128 : Shape := ⟨2, ![55, 128]⟩
abbrev S20x128 : Shape := ⟨2, ![20, 128]⟩
abbrev S1x128 : Shape := ⟨2, ![1, 128]⟩
abbrev S128x128 : Shape := ⟨2, ![128, 128]⟩
abbrev S128x35 : Shape := ⟨2, ![128, 35]⟩
abbrev S1x35 : Shape := ⟨2, ![1, 35]⟩
abbrev S_ : Shape := ⟨0, ![]⟩

class Facts : Prop where
  bcast_S_S131072x55 : S_.BroadcastsInDim S131072x55 (![] : Fin 0 → Fin S131072x55.rank)
  reducesTo_S131072x55_S_d0_1 : S131072x55.ReducesTo [0, 1] S_
  h_S_ : 0 < S_.numel
  bcast_S_S131072x10 : S_.BroadcastsInDim S131072x10 (![] : Fin 0 → Fin S131072x10.rank)
  reducesTo_S131072x10_S_d0_1 : S131072x10.ReducesTo [0, 1] S_
  bcast_S_S55x128 : S_.BroadcastsInDim S55x128 (![] : Fin 0 → Fin S55x128.rank)
  reducesTo_S55x128_S_d0_1 : S55x128.ReducesTo [0, 1] S_
  bcast_S_S20x128 : S_.BroadcastsInDim S20x128 (![] : Fin 0 → Fin S20x128.rank)
  reducesTo_S20x128_S_d0_1 : S20x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_
  bcast_S_S128x35 : S_.BroadcastsInDim S128x35 (![] : Fin 0 → Fin S128x35.rank)
  reducesTo_S128x35_S_d0_1 : S128x35.ReducesTo [0, 1] S_
  bcast_S_S1x35 : S_.BroadcastsInDim S1x35 (![] : Fin 0 → Fin S1x35.rank)
  reducesTo_S1x35_S_d0_1 : S1x35.ReducesTo [0, 1] S_

variable [Facts]

def fn_part2 {F : FTy → Type} [FloatOps F] (main_arg7 : FVec F S1x128 .f32) (main_arg8 : FVec F S128x35 .f32) (main_arg9 : FVec F S1x35 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S128x35 .f32 := Host.absf main_arg8
  let main_cst_14 : FVec F S_ .f32 := constant S_ .f32 0x7F800000#32
  let main_v40 : FVec F S128x35 .f32 := broadcastInDim S128x35 ![] bcast_S_S128x35 main_cst_14
  let main_v41 : IVec S128x35 1 := cmpf .olt main_v39 main_v40
  let main_c_15 : IVec S_ 1 := constantI S_ 1 1#1
  let main_v42 : IVec S_ 1 := (fun x v => Host.reduce IntOp.andi x v reducesTo_S128x35_S_d0_1 h_S_) main_v41 main_c_15
  let main_v43 : IVec S_ 1 := andi main_v38 main_v42
  let main_v44 : FVec F S1x35 .f32 := Host.absf main_arg9
  let main_cst_16 : FVec F S_ .f32 := constant S_ .f32 0x7F800000#32
  let main_v45 : FVec F S1x35 .f32 := broadcastInDim S1x35 ![] bcast_S_S1x35 main_cst_16
  let main_v46 : IVec S1x35 1 := cmpf .olt main_v44 main_v45
  let main_c_17 : IVec S_ 1 := constantI S_ 1 1#1
  let main_v47 : IVec S_ 1 := (fun x v => Host.reduce IntOp.andi x v reducesTo_S1x35_S_d0_1 h_S_) main_v46 main_c_17
  let main_v48 : IVec S_ 1 := andi main_v43 main_v47
  main_v48

def fn_part1 {F : FTy → Type} [FloatOps F] (main_arg4 : FVec F S20x128 .f32) (main_arg5 : FVec F S1x128 .f32) (main_arg6 : FVec F S128x128 .f32) (main_arg7 : FVec F S1x128 .f32) (main_arg8 : FVec F S128x35 .f32) (main_arg9 : FVec F S1x35 .f32) (main_v13 : IVec S_ 1) (main_v16 : IVec S55x128 1) : IVec S_ 1 :=
  let main_c_5 : IVec S_ 1 := constantI S_ 1 1#1
  let main_v17 : IVec S_ 1 := (fun x v => Host.reduce IntOp.andi x v reducesTo_S55x128_S_d0_1 h_S_) main_v16 main_c_5
  let main_v18 : IVec S_ 1 := andi main_v13 main_v17
  let main_v19 : FVec F S20x128 .f32 := Host.absf main_arg4
  let main_cst_6 : FVec F S_ .f32 := constant S_ .f32 0x7F800000#32
  let main_v20 : FVec F S20x128 .f32 := broadcastInDim S20x128 ![] bcast_S_S20x128 main_cst_6
  let main_v21 : IVec S20x128 1 := cmpf .olt main_v19 main_v20
  let main_c_7 : IVec S_ 1 := constantI S_ 1 1#1
  let main_v22 : IVec S_ 1 := (fun x v => Host.reduce IntOp.andi x v reducesTo_S20x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S131072x55 .f32) (main_arg1 : FVec F S131072x10 .f32) (main_arg2 : FVec F S131072x10 .f32) (main_arg3 : FVec F S55x128 .f32) (main_arg4 : FVec F S20x128 .f32) (main_arg5 : FVec F S1x128 .f32) (main_arg6 : FVec F S128x128 .f32) (main_arg7 : FVec F S1x128 .f32) (main_arg8 : FVec F S128x35 .f32) (main_arg9 : FVec F S1x35 .f32) : IVec S_ 1 :=
  let main_v0 : FVec F S131072x55 .f32 := Host.absf main_arg0
  let main_cst : FVec F S_ .f32 := constant S_ .f32 0x7F800000#32
  let main_v1 : FVec F S131072x55 .f32 := broadcastInDim S131072x55 ![] bcast_S_S131072x55 main_cst
  let main_v2 : IVec S131072x55 1 := cmpf .olt main_v0 main_v1
  let main_c : IVec S_ 1 := constantI S_ 1 1#1
  let main_v3 : IVec S_ 1 := (fun x v => Host.reduce IntOp.andi x v reducesTo_S131072x55_S_d0_1 h_S_) main_v2 main_c
  let main_v4 : FVec F S131072x10 .f32 := Host.absf main_arg1
  let main_cst_0 : FVec F S_ .f32 := constant S_ .f32 0x7F800000#32
  let main_v5 : FVec F S131072x10 .f32 := broadcastInDim S131072x10 ![] bcast_S_S131072x10 main_cst_0
  let main_v6 : IVec S131072x10 1 := cmpf .olt main_v4 main_v5
  let main_c_1 : IVec S_ 1 := constantI S_ 1 1#1
  let main_v7 : IVec S_ 1 := (fun x v => Host.reduce IntOp.andi x v reducesTo_S131072x10_S_d0_1 h_S_) main_v6 main_c_1
  let main_v8 : IVec S_ 1 := andi main_v3 main_v7
  let main_v9 : FVec F S131072x10 .f32 := Host.absf main_arg2
  let main_cst_2 : FVec F S_ .f32 := constant S_ .f32 0x7F800000#32
  let main_v10 : FVec F S131072x10 .f32 := broadcastInDim S131072x10 ![] bcast_S_S131072x10 main_cst_2
  let main_v11 : IVec S131072x10 1 := cmpf .olt main_v9 main_v10
  let main_c_3 : IVec S_ 1 := constantI S_ 1 1#1
  let main_v12 : IVec S_ 1 := (fun x v => Host.reduce IntOp.andi x v reducesTo_S131072x10_S_d0_1 h_S_) main_v11 main_c_3
  let main_v13 : IVec S_ 1 := andi main_v8 main_v12
  let main_v14 : FVec F S55x128 .f32 := Host.absf main_arg3
  let main_cst_4 : FVec F S_ .f32 := constant S_ .f32 0x7F800000#32
  let main_v15 : FVec F S55x128 .f32 := broadcastInDim S55x128 ![] bcast_S_S55x128 main_cst_4
  let main_v16 : IVec S55x128 1 := cmpf .olt main_v14 main_v15
  fn_part1 (F := F) main_arg4 main_arg5 main_arg6 main_arg7 main_arg8 main_arg9 main_v13 main_v16
-- ==== Kernel.lean ====
abbrev S131072x55 : Shape := ⟨2, ![131072, 55]⟩
abbrev S131072x10 : Shape := ⟨2, ![131072, 10]⟩
abbrev S55x128 : Shape := ⟨2, ![55, 128]⟩
abbrev S20x128 : Shape := ⟨2, ![20, 128]⟩
abbrev S1x128 : Shape := ⟨2, ![1, 128]⟩
abbrev S128x128 : Shape := ⟨2, ![128, 128]⟩
abbrev S128x35 : Shape := ⟨2, ![128, 35]⟩
abbrev S1x35 : Shape := ⟨2, ![1, 35]⟩
abbrev S10x128 : Shape := ⟨2, ![10, 128]⟩
abbrev S131072x35 : Shape := ⟨2, ![131072, 35]⟩
abbrev S8192x55 : Shape := ⟨2, ![8192, 55]⟩
abbrev S8192x10 : Shape := ⟨2, ![8192, 10]⟩
abbrev S8192x35 : Shape := ⟨2, ![8192, 35]⟩
abbrev S8192x128 : Shape := ⟨2, ![8192, 128]⟩

abbrev nBuf : Space → Nat
  | .hbm => 21
  | .vmem => 16
  | .smem => 0
  | _ => 0

abbrev bufTy : (tb : Table) → Fin (tcTables nBuf tb) → BufTy
  | .hbm, ⟨0, _⟩ => ⟨S131072x55, .f32⟩
  | .hbm, ⟨1, _⟩ => ⟨S131072x10, .f32⟩
  | .hbm, ⟨2, _⟩ => ⟨S131072x10, .f32⟩
  | .hbm, ⟨3, _⟩ => ⟨S55x128, .f32⟩
  | .hbm, ⟨4, _⟩ => ⟨S20x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x35, .f32⟩
  | .hbm, ⟨9, _⟩ => ⟨S1x35, .f32⟩
  | .hbm, ⟨10, _⟩ => ⟨S55x128, .bf16⟩
  | .hbm, ⟨11, _⟩ => ⟨S10x128, .f32⟩
  | .hbm, ⟨12, _⟩ => ⟨S10x128, .bf16⟩
  | .hbm, ⟨13, _⟩ => ⟨S10x128, .f32⟩
  | .hbm, ⟨14, _⟩ => ⟨S10x128, .bf16⟩
  | .hbm, ⟨15, _⟩ => ⟨S128x128, .bf16⟩
  | .hbm, ⟨16, _⟩ => ⟨S128x35, .bf16⟩
  | .hbm, ⟨17, _⟩ => ⟨S131072x55, .bf16⟩
  | .hbm, ⟨18, _⟩ => ⟨S131072x10, .bf16⟩
  | .hbm, ⟨19, _⟩ => ⟨S131072x10, .bf16⟩
  | .hbm, ⟨20, _⟩ => ⟨S131072x35, .f32⟩
  | .local _ .vmem, ⟨0, _⟩ => ⟨S8192x55, .bf16⟩
  | .local _ .vmem, ⟨1, _⟩ => ⟨S8192x55, .bf16⟩
  | .local _ .vmem, ⟨2, _⟩ => ⟨S8192x10, .bf16⟩
  | .local _ .vmem, ⟨3, _⟩ => ⟨S8192x10, .bf16⟩
  | .local _ .vmem, ⟨4, _⟩ => ⟨S8192x10, .bf16⟩
  | .local _ .vmem, ⟨5, _⟩ => ⟨S8192x10, .bf16⟩
  | .local _ .vmem, ⟨6, _⟩ => ⟨S55x128, .bf16⟩
  | .local _ .vmem, ⟨7, _⟩ => ⟨S10x128, .bf16⟩
  | .local _ .vmem, ⟨8, _⟩ => ⟨S10x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x35, .bf16⟩
  | .local _ .vmem, ⟨13, _⟩ => ⟨S1x35, .f32⟩
  | .local _ .vmem, ⟨14, _⟩ => ⟨S8192x35, .f32⟩
  | .local _ .vmem, ⟨15, _⟩ => ⟨S8192x35, .f32⟩
  | _, _ => ⟨S131072x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x55 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x10 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x10 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S55x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x35 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x35 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8192x35 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  slices_S20x128_S10x128_0_0 : S20x128.Slices ![0, 0] S10x128
  slices_S20x128_S10x128_10_0 : S20x128.Slices ![10, 0] S10x128
  inb_S8192x55_S8192x55_0_0 : ∀ a, (![0, 0] : Fin 2 → Nat) a + S8192x55.size a ≤ S8192x55.size a
  h_S8192x55 : 0 < S8192x55.numel
  shapeCasts_S8192x55_S8192x55 : S8192x55.ShapeCasts S8192x55
  inb_S55x128_S55x128_0_0 : ∀ a, (![0, 0] : Fin 2 → Nat) a + S55x128.size a ≤ S55x128.size a
  h_S55x128 : 0 < S55x128.numel
  shapeCasts_S55x128_S55x128 : S55x128.ShapeCasts S55x128
  inb_S8192x10_S8192x10_0_0 : ∀ a, (![0, 0] : Fin 2 → Nat) a + S8192x10.size a ≤ S8192x10.size a
  h_S8192x10 : 0 < S8192x10.numel
  shapeCasts_S8192x10_S8192x10 : S8192x10.ShapeCasts S8192x10
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x128_S1x128_0_0 : ∀ a, (![0, 0] : Fin 2 → Nat) a + S1x128.size a ≤ S1x128.size a
  h_S1x128 : 0 < S1x128.numel
  broadcasts_S1x128_S8192x128 : S1x128.Broadcasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x35_S128x35_0_0 : ∀ a, (![0, 0] : Fin 2 → Nat) a + S128x35.size a ≤ S128x35.size a
  h_S128x35 : 0 < S128x35.numel
  shapeCasts_S128x35_S128x35 : S128x35.ShapeCasts S128x35
  inb_S1x35_S1x35_0_0 : ∀ a, (![0, 0] : Fin 2 → Nat) a + S1x35.size a ≤ S1x35.size a
  h_S1x35 : 0 < S1x35.numel
  broadcasts_S1x35_S8192x35 : S1x35.Broadcasts S8192x35
  inb_S8192x35_S8192x35_0_0 : ∀ a, (![0, 0] : Fin 2 → Nat) a + S8192x35.size a ≤ S8192x35.size a
  h_S8192x35 : 0 < S8192x35.numel
  dot_S8192x55_S55x128_S8192x128_1_0_0_1_n_n_wf : DotDims.WF S8192x55 S55x128 S8192x128 [1] [0] [0] [1] [] []
  dot_S8192x10_S10x128_S8192x128_1_0_0_1_n_n_wf : DotDims.WF S8192x10 S10x128 S8192x128 [1] [0] [0] [1] [] []
  dot_S8192x128_S128x128_S8192x128_1_0_0_1_n_n_wf : DotDims.WF S8192x128 S128x128 S8192x128 [1] [0] [0] [1] [] []
  dot_S8192x128_S128x35_S8192x35_1_0_0_1_n_n_wf : DotDims.WF S8192x128 S128x35 S8192x35 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x55.size a ≤ S131072x55.size a
  hwx0_0 : ∀ i : grid0.Coords, EltTy.bits .bf16 = 32 ∨ (Rect.block (s := S131072x55) S8192x55.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x10.size a ≤ S131072x10.size a
  hwx0_1 : ∀ i : grid0.Coords, EltTy.bits .bf16 = 32 ∨ (Rect.block (s := S131072x10) S8192x10.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x10.size a ≤ S131072x10.size a
  hwx0_2 : ∀ i : grid0.Coords, EltTy.bits .bf16 = 32 ∨ (Rect.block (s := S131072x10) S8192x10.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S55x128.size a ≤ S55x128.size a
  hwx0_3 : ∀ i : grid0.Coords, EltTy.bits .bf16 = 32 ∨ (Rect.block (s := S55x128) S55x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x128.size a ≤ S10x128.size a
  hwx0_4 : ∀ i : grid0.Coords, EltTy.bits .bf16 = 32 ∨ (Rect.block (s := S10x128) S10x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x128.size a
  hwx0_5 : ∀ i : grid0.Coords, EltTy.bits .bf16 = 32 ∨ (Rect.block (s := S10x128) S10x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x35.size a ≤ S128x35.size a
  hwx0_9 : ∀ i : grid0.Coords, EltTy.bits .bf16 = 32 ∨ (Rect.block (s := S128x35) S128x35.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x35.size a ≤ S1x35.size a
  hwx0_10 : ∀ i : grid0.Coords, EltTy.bits .f32 = 32 ∨ (Rect.block (s := S1x35) S1x35.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8192x35.size a ≤ S131072x35.size a
  hwx0_11 : ∀ i : grid0.Coords, EltTy.bits .f32 = 32 ∨ (Rect.block (s := S131072x35) S8192x35.size (cc0_transform_11 i) (hinb0_11 i)).WholeWords (EltTy.packing .f32)

variable [Facts₀]

def dot_S8192x55_S55x128_S8192x128_1_0_0_1_n_n : DotDims S8192x55 S55x128 S8192x128 where
  lhsContracting := [1]
  rhsContracting := [0]
  lhsNonContracting := [0]
  rhsNonContracting := [1]
  lhsBatch := []
  rhsBatch := []
  wf := dot_S8192x55_S55x128_S8192x128_1_0_0_1_n_n_wf
def dot_S8192x10_S10x128_S8192x128_1_0_0_1_n_n : DotDims S8192x10 S10x128 S8192x128 where
  lhsContracting := [1]
  rhsContracting := [0]
  lhsNonContracting := [0]
  rhsNonContracting := [1]
  lhsBatch := []
  rhsBatch := []
  wf := dot_S8192x10_S10x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x35_S8192x35_1_0_0_1_n_n : DotDims S8192x128 S128x35 S8192x35 where
  lhsContracting := [1]
  rhsContracting := [0]
  lhsNonContracting := [0]
  rhsNonContracting := [1]
  lhsBatch := []
  rhsBatch := []
  wf := dot_S8192x128_S128x35_S8192x35_1_0_0_1_n_n_wf

abbrev win0_0 : Pipeline.Window sig grid0 :=
  Pipeline.Window.ofSpec (Memref.whole main_v7) S8192x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8192x10.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S55x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S10x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S10x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S128x35.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1x35.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S8192x35.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x55 : Shape := ⟨2, ![131072, 55]⟩
abbrev S131072x10 : Shape := ⟨2, ![131072, 10]⟩
abbrev S55x128 : Shape := ⟨2, ![55, 128]⟩
abbrev S20x128 : Shape := ⟨2, ![20, 128]⟩
abbrev S1x128 : Shape := ⟨2, ![1, 128]⟩
abbrev S128x128 : Shape := ⟨2, ![128, 128]⟩
abbrev S128x35 : Shape := ⟨2, ![128, 35]⟩
abbrev S1x35 : Shape := ⟨2, ![1, 35]⟩
abbrev S131072x20 : Shape := ⟨2, ![131072, 20]⟩
abbrev S131072x35 : Shape := ⟨2, ![131072, 35]⟩
abbrev S2048x55 : Shape := ⟨2, ![2048, 55]⟩
abbrev S2048x20 : Shape := ⟨2, ![2048, 20]⟩
abbrev S2048x35 : Shape := ⟨2, ![2048, 35]⟩
abbrev S2048x128 : Shape := ⟨2, ![2048, 128]⟩

abbrev nBuf : Space → Nat
  | .hbm => 12
  | .vmem => 13
  | .smem => 0
  | _ => 0

abbrev bufTy : (tb : Table) → Fin (tcTables nBuf tb) → BufTy
  | .hbm, ⟨0, _⟩ => ⟨S131072x55, .f32⟩
  | .hbm, ⟨1, _⟩ => ⟨S131072x10, .f32⟩
  | .hbm, ⟨2, _⟩ => ⟨S131072x10, .f32⟩
  | .hbm, ⟨3, _⟩ => ⟨S55x128, .f32⟩
  | .hbm, ⟨4, _⟩ => ⟨S20x128, .f32⟩
  | .hbm, ⟨5, _⟩ => ⟨S1x128, .f32⟩
  | .hbm, ⟨6, _⟩ => ⟨S128x128, .f32⟩
  | .hbm, ⟨7, _⟩ => ⟨S1x128, .f32⟩
  | .hbm, ⟨8, _⟩ => ⟨S128x35, .f32⟩
  | .hbm, ⟨9, _⟩ => ⟨S1x35, .f32⟩
  | .hbm, ⟨10, _⟩ => ⟨S131072x20, .f32⟩
  | .hbm, ⟨11, _⟩ => ⟨S131072x35, .f32⟩
  | .local _ .vmem, ⟨0, _⟩ => ⟨S2048x55, .f32⟩
  | .local _ .vmem, ⟨1, _⟩ => ⟨S2048x55, .f32⟩
  | .local _ .vmem, ⟨2, _⟩ => ⟨S2048x20, .f32⟩
  | .local _ .vmem, ⟨3, _⟩ => ⟨S2048x20, .f32⟩
  | .local _ .vmem, ⟨4, _⟩ => ⟨S55x128, .f32⟩
  | .local _ .vmem, ⟨5, _⟩ => ⟨S20x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x35, .f32⟩
  | .local _ .vmem, ⟨10, _⟩ => ⟨S1x35, .f32⟩
  | .local _ .vmem, ⟨11, _⟩ => ⟨S2048x35, .f32⟩
  | .local _ .vmem, ⟨12, _⟩ => ⟨S2048x35, .f32⟩
  | _, _ => ⟨S131072x55, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x55 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S55x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x35 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x35 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x35 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S131072x10_S131072x10_S131072x20_d1 : Shape.Concatenates [S131072x10, S131072x10] S131072x20 1
  inb_S2048x55_S2048x55_0_0 : ∀ a, (![0, 0] : Fin 2 → Nat) a + S2048x55.size a ≤ S2048x55.size a
  h_S2048x55 : 0 < S2048x55.numel
  inb_S55x128_S55x128_0_0 : ∀ a, (![0, 0] : Fin 2 → Nat) a + S55x128.size a ≤ S55x128.size a
  h_S55x128 : 0 < S55x128.numel
  inb_S2048x20_S2048x20_0_0 : ∀ a, (![0, 0] : Fin 2 → Nat) a + S2048x20.size a ≤ S2048x20.size a
  h_S2048x20 : 0 < S2048x20.numel
  shapeCasts_S2048x20_S2048x20 : S2048x20.ShapeCasts S2048x20
  inb_S20x128_S20x128_0_0 : ∀ a, (![0, 0] : Fin 2 → Nat) a + S20x128.size a ≤ S20x128.size a
  h_S20x128 : 0 < S20x128.numel
  inb_S1x128_S1x128_0_0 : ∀ a, (![0, 0] : Fin 2 → Nat) a + S1x128.size a ≤ S1x128.size a
  h_S1x128 : 0 < S1x128.numel
  broadcasts_S1x128_S2048x128 : S1x128.Broadcasts S2048x128
  inb_S128x128_S128x128_0_0 : ∀ a, (![0, 0] : Fin 2 → Nat) a + S128x128.size a ≤ S128x128.size a
  h_S128x128 : 0 < S128x128.numel
  inb_S128x35_S128x35_0_0 : ∀ a, (![0, 0] : Fin 2 → Nat) a + S128x35.size a ≤ S128x35.size a
  h_S128x35 : 0 < S128x35.numel
  inb_S1x35_S1x35_0_0 : ∀ a, (![0, 0] : Fin 2 → Nat) a + S1x35.size a ≤ S1x35.size a
  h_S1x35 : 0 < S1x35.numel
  broadcasts_S1x35_S2048x35 : S1x35.Broadcasts S2048x35
  inb_S2048x35_S2048x35_0_0 : ∀ a, (![0, 0] : Fin 2 → Nat) a + S2048x35.size a ≤ S2048x35.size a
  h_S2048x35 : 0 < S2048x35.numel
  dot_S2048x55_S55x128_S2048x128_1_0_0_1_n_n_wf : DotDims.WF S2048x55 S55x128 S2048x128 [1] [0] [0] [1] [] []
  dot_S2048x20_S20x128_S2048x128_1_0_0_1_n_n_wf : DotDims.WF S2048x20 S20x128 S2048x128 [1] [0] [0] [1] [] []
  dot_S2048x128_S128x128_S2048x128_1_0_0_1_n_n_wf : DotDims.WF S2048x128 S128x128 S2048x128 [1] [0] [0] [1] [] []
  dot_S2048x128_S128x35_S2048x35_1_0_0_1_n_n_wf : DotDims.WF S2048x128 S128x35 S2048x35 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x55.size a ≤ S131072x55.size a
  hwx0_0 : ∀ i : grid0.Coords, EltTy.bits .f32 = 32 ∨ (Rect.block (s := S131072x55) S2048x55.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x20.size a ≤ S131072x20.size a
  hwx0_1 : ∀ i : grid0.Coords, EltTy.bits .f32 = 32 ∨ (Rect.block (s := S131072x20) S2048x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S55x128.size a ≤ S55x128.size a
  hwx0_2 : ∀ i : grid0.Coords, EltTy.bits .f32 = 32 ∨ (Rect.block (s := S55x128) S55x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x128.size a ≤ S20x128.size a
  hwx0_3 : ∀ i : grid0.Coords, EltTy.bits .f32 = 32 ∨ (Rect.block (s := S20x128) S20x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x35.size a ≤ S128x35.size a
  hwx0_7 : ∀ i : grid0.Coords, EltTy.bits .f32 = 32 ∨ (Rect.block (s := S128x35) S128x35.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x35.size a ≤ S1x35.size a
  hwx0_8 : ∀ i : grid0.Coords, EltTy.bits .f32 = 32 ∨ (Rect.block (s := S1x35) S1x35.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x35.size a ≤ S131072x35.size a
  hwx0_9 : ∀ i : grid0.Coords, EltTy.bits .f32 = 32 ∨ (Rect.block (s := S131072x35) S2048x35.size (cc0_transform_9 i) (hinb0_9 i)).WholeWords (EltTy.packing .f32)

variable [Facts₀]

def dot_S2048x55_S55x128_S2048x128_1_0_0_1_n_n : DotDims S2048x55 S55x128 S2048x128 where
  lhsContracting := [1]
  rhsContracting := [0]
  lhsNonContracting := [0]
  rhsNonContracting := [1]
  lhsBatch := []
  rhsBatch := []
  wf := dot_S2048x55_S55x128_S2048x128_1_0_0_1_n_n_wf
def dot_S2048x20_S20x128_S2048x128_1_0_0_1_n_n : DotDims S2048x20 S20x128 S2048x128 where
  lhsContracting := [1]
  rhsContracting := [0]
  lhsNonContracting := [0]
  rhsNonContracting := [1]
  lhsBatch := []
  rhsBatch := []
  wf := dot_S2048x20_S20x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x35_S2048x35_1_0_0_1_n_n : DotDims S2048x128 S128x35 S2048x35 where
  lhsContracting := [1]
  rhsContracting := [0]
  lhsNonContracting := [0]
  rhsNonContracting := [1]
  lhsBatch := []
  rhsBatch := []
  wf := dot_S2048x128_S128x35_S2048x35_1_0_0_1_n_n_wf

abbrev win0_0 : Pipeline.Window sig grid0 :=
  Pipeline.Window.ofSpec (Memref.whole main_arg0) S2048x55.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S55x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S20x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x35.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x35.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S2048x35.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.LibMatmulAt.lean ====
/-
  A plain matrix product and a broadcast bias row, read at an index on the extended reals, for ALL extents.

  `matmul_plain_at`: the product of an `M × K` by a `K × N` matrix into the zero accumulator, read at row `p` and
  column `q`, is `∑ k : Fin K, lhs (p, k) * rhs (k, q)` — the contraction index re-indexed to its one coordinate
  and both operand indices named by their coordinates. `matmul_at` is the same for any dimension-number record
  whose axis lists are the plain product's (a record that differs only in its well-formedness proof is equal to
  `DotDims.plain M K N` by `rfl`). `broadcast_row`: a `1 × N` row broadcast down `M` rows, read at (p, j), is the
  row's entry `j`. Nothing here depends on any program.
-/
import Idealize.ShloMosaic.PureOps.Ideal.Laws
import Idealize.ShloMosaic.Lib.ValueIdx
import Idealize.ShloMosaic.Lib.Pipeline.Value

noncomputable section

open scoped BigOperators

namespace Cert.MatmulAt

open Idealize.ShloMosaic Idealize.ShloMosaic.ValueIdx

/-- `M × K` times `K × N` into the zero accumulator, at row `p` and column `q`: the sum over the contracted
    coordinate of the products of the row's and the column's entries. -/
theorem matmul_plain_at {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a; apply Fin.ext
    match a with
    | ⟨0, _⟩ => rfl
    | ⟨1, _⟩ =>
      exact ((DotDims.plain M K N).lhsIdx_val_of_single (cl := (1 : Fin 2)) rfl _ _).trans
        (contrEquiv1_symm_val (DotDims.plain M K N) K rfl rfl k)
  have hr : (DotDims.plain M K N).rhsIdx (ix2 p q) ((contrEquiv1 (DotDims.plain M K N) K rfl rfl).symm k) = ix2 k q := by
    funext a; apply Fin.ext
    match a with
    | ⟨0, _⟩ =>
      exact ((DotDims.plain M K N).rhsIdx_val_of_single (cr := (0 : Fin 2)) rfl _ _).trans
        (contrEquiv1_symm_val (DotDims.plain M K N) K rfl rfl k)
    | ⟨1, _⟩ => rfl
  rw [hl, hr]

/-- The same for any dimension-number record with the plain product's axis lists. -/
theorem matmul_at {M K N : Nat} {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant ⟨2, ![M, N]⟩ .f32 0x00000000#32) (ix2 p q)
      = ∑ k : Fin K, lhs (ix2 p k) * rhs (ix2 k q) := by
  subst hD; exact matmul_plain_at prec lhs rhs p q

/-- A one-row matrix broadcast down `M` rows, at (p, j): the row's entry `j`. -/
theorem broadcast_row {α : Type} {M N : Nat} (b : (⟨2, ![1, N]⟩ : Shape).Idx → α)
    (h : (⟨2, ![1, N]⟩ : Shape).Broadcasts ⟨2, ![M, N]⟩) (p : Fin M) (j : Fin N) :
    broadcastTo ⟨2, ![M, N]⟩ b h (ix2 p j) = b (ix2 0 j) := by
  refine broadcastTo_apply b h (ix2 p j) (ix2 0 j) fun a => ?_
  match a with
  | ⟨0, _⟩ => exact (if_pos rfl).symm
  | ⟨1, _⟩ =>
    show j.val = if N = 1 then 0 else j.val
    by_cases hN : N = 1
    · rw [if_pos hN]; have := j.isLt; omega
    · rw [if_neg hN]

end Cert.MatmulAt

end
-- ==== Proof.RowMlp.lean ====
/-
  A three-layer perceptron, one batch row at a time, on the extended reals.

  Both programs compute, for every batch row `r`, the same function of that row alone:
    h₁ = x·W₁ + b₁,   h₂ = act (h₁·W₂ + b₂),   out = h₂·W₃ + b₃,
  where `x` is the row of the 55 observation features followed by the 2 × 10 action features, and `act` is the leaky
  rectifier spelt `select (h ≥ 0) h (c·h)` with one and the same constant `c` on both sides (never evaluated here).
  They differ in how the first product is arranged: one program multiplies the two action rows by the two halves of
  the 20 × 128 action weight separately and adds the three products; the other concatenates the two action rows and
  multiplies once. The sum over the twenty joint features is the sum over the first ten plus the sum over the last
  ten, and addition of extended reals is associative: that is the whole law (`hiddenSplit_eq_joint`), and it needs
  no finiteness.
-/
import proofs.«146895_g2000306996616987_pallasbulk_880_12_alg».proof.Proof.LibMatmulAt

noncomputable section

open scoped BigOperators

namespace Cert.RowMlp

open Idealize.ShloMosaic Idealize.ShloMosaic.ValueIdx

/-! ## The row-wise specification -/

/-- A matrix of extended reals, indexed as the printed programs index their arrays. -/
abbrev Mat (a b : Nat) : Type := (⟨2, ![a, b]⟩ : Shape).Idx → EReal

/-- Row `r` of a matrix. -/
abbrev row {a b : Nat} (X : Mat a b) (r : Fin a) : Fin b → EReal := fun k => X (ix2 r k)

/-- The leaky rectifier as both programs spell it, on one element. -/
def act (h : EReal) : EReal :=
  Scalar.select (FloatOps.cmpf (F := Ideal) (φ := .f32) .oge h (Scalar.ofBits (F := Ideal) .f32 0x00000000#32)) h
    (FloatOps.mulf (F := Ideal) (φ := .f32) (Scalar.ofBits (F := Ideal) .f32 0x3C23D70A#32) h)

/-- One affine layer applied to a row: `x·W + b`. -/
def affine {K N : Nat} (W : Mat K N) (b : Mat 1 N) (x : Fin K → EReal) : Fin N → EReal :=
  fun j => ∑ k : Fin K, x k * W (ix2 k j) + b (ix2 0 j)

/-- The last two layers on a hidden row: `act (h·W₂ + b₂)·W₃ + b₃`. -/
def head (W2 : Mat 128 128) (b2 : Mat 1 128) (W3 : Mat 128 35) (b3 : Mat 1 35) (h : Fin 128 → EReal) : Fin 35 → EReal :=
  affine W3 b3 fun k => act (affine W2 b2 h k)

/-- The first layer with the two action rows multiplied separately: `((xo·Wo + x1·A1) + x2·A2) + b₁`. -/
def hiddenSplit (Wo : Mat 55 128) (A1 A2 : Mat 10 128) (b1 : Mat 1 128) (xo : Fin 55 → EReal) (x1 x2 : Fin 10 → EReal) :
    Fin 128 → EReal :=
  fun j => ((∑ k : Fin 55, xo k * Wo (ix2 k j) + ∑ k : Fin 10, x1 k * A1 (ix2 k j)) + ∑ k : Fin 10, x2 k * A2 (ix2 k j))
    + b1 (ix2 0 j)

/-- The first layer with the joint action row multiplied once: `(xo·Wo + xa·Wa) + b₁`. -/
def hiddenJoint (Wo : Mat 55 128) (Wa : Mat 20 128) (b1 : Mat 1 128) (xo : Fin 55 → EReal) (xa : Fin 20 → EReal) :
    Fin 128 → EReal :=
  fun j => (∑ k : Fin 55, xo k * Wo (ix2 k j) + ∑ k : Fin 20, xa k * Wa (ix2 k j)) + b1 (ix2 0 j)

/-! ## Twenty features are ten and ten -/

/-- The first ten of twenty positions. -/
def lo (i : Fin 10) : Fin 20 := ⟨i.val, by omega⟩
/-- The last ten of twenty positions. -/
def hi (i : Fin 10) : Fin 20 := ⟨10 + i.val, by omega⟩

/-- A sum over twenty positions is the sum over the first ten plus the sum over the last ten. -/
theorem sum_twenty (f : Fin 20 → EReal) : ∑ k : Fin 20, f k = ∑ i : Fin 10, f (lo i) + ∑ i : Fin 10, f (hi i) :=
  Fin.sum_univ_add (a := 10) (b := 10) f

/-- The upper half of a 20-row matrix. -/
def topRows (Wa : Mat 20 128) : Mat 10 128 := fun i => Wa (ix2 (lo (i 0)) (i 1))
/-- The lower half of a 20-row matrix. -/
def botRows (Wa : Mat 20 128) : Mat 10 128 := fun i => Wa (ix2 (hi (i 0)) (i 1))

/-- Two rows of ten laid end to end. -/
def joinRow (x y : Fin 10 → EReal) : Fin 20 → EReal :=
  fun k => if h : k.val < 10 then x ⟨k.val, h⟩ else y ⟨k.val - 10, by have := k.isLt; omega⟩

theorem joinRow_lo (x y : Fin 10 → EReal) (i : Fin 10) : joinRow x y (lo i) = x i := by
  unfold joinRow
  rw [dif_pos (show (lo i).val < 10 from i.isLt)]
  rfl

theorem joinRow_hi (x y : Fin 10 → EReal) (i : Fin 10) : joinRow x y (hi i) = y i := by
  unfold joinRow
  rw [dif_neg (show ¬ (hi i).val < 10 by show ¬ 10 + i.val < 10; omega)]
  exact congrArg y (Fin.ext (show 10 + i.val - 10 = i.val by omega))

/-- Two 10-column matrices side by side: every row is the two rows laid end to end. -/
def sideBySide {a : Nat} (X Y : Mat a 10) : Mat a 20 := fun i => joinRow (row X (i 0)) (row Y (i 0)) (i 1)

theorem sideBySide_lo {a : Nat} (X Y : Mat a 10) (r : Fin a) (i : Fin 10) : sideBySide X Y (ix2 r (lo i)) = X (ix2 r i) :=
  joinRow_lo (row X r) (row Y r) i

theorem sideBySide_hi {a : Nat} (X Y : Mat a 10) (r : Fin a) (i : Fin 10) : sideBySide X Y (ix2 r (hi i)) = Y (ix2 r i) :=
  joinRow_hi (row X r) (row Y r) i

/-- THE LAW: the split first layer on the two action rows and the two halves of the action weight is the joint
    first layer on the concatenated row and the whole weight. -/
theorem hiddenSplit_eq_joint {a : Nat} (Wo : Mat 55 128) (Wa : Mat 20 128) (b1 : Mat 1 128) (xo : Fin 55 → EReal)
    (X1 X2 : Mat a 10) (r : Fin a) :
    hiddenSplit Wo (topRows Wa) (botRows Wa) b1 xo (row X1 r) (row X2 r)
      = hiddenJoint Wo Wa b1 xo (row (sideBySide X1 X2) r) := by
  funext j
  unfold hiddenSplit hiddenJoint
  rw [sum_twenty, add_assoc (∑ k : Fin 55, xo k * Wo (ix2 k j))]
  simp only [row, sideBySide_lo, sideBySide_hi, topRows, botRows]

/-! ## The whole batch -/

/-- The perceptron on every row of a batch, first layer split: what the kernel's output array holds. -/
def outSplit {B : Nat} (X0 : Mat B 55) (X1 X2 : Mat B 10) (Wo : Mat 55 128) (A1 A2 : Mat 10 128) (b1 : Mat 1 128)
    (W2 : Mat 128 128) (b2 : Mat 1 128) (W3 : Mat 128 35) (b3 : Mat 1 35) : Mat B 35 :=
  fun i => head W2 b2 W3 b3 (hiddenSplit Wo A1 A2 b1 (row X0 (i 0)) (row X1 (i 0)) (row X2 (i 0))) (i 1)

/-- The perceptron on every row of a batch, first layer joint: what the reference's output array holds. -/
def outJoint {B : Nat} (X0 : Mat B 55) (Xa : Mat B 20) (Wo : Mat 55 128) (Wa : Mat 20 128) (b1 : Mat 1 128)
    (W2 : Mat 128 128) (b2 : Mat 1 128) (W3 : Mat 128 35) (b3 : Mat 1 35) : Mat B 35 :=
  fun i => head W2 b2 W3 b3 (hiddenJoint Wo Wa b1 (row X0 (i 0)) (row Xa (i 0))) (i 1)

/-- The two are one function when the split side is given the halves of the action weight and the joint side the
    two action batches side by side: row by row, `hiddenSplit_eq_joint`. -/
theorem outSplit_eq_outJoint {B : Nat} (X0 : Mat B 55) (X1 X2 : Mat B 10) (Wo : Mat 55 128) (Wa : Mat 20 128) (b1 : Mat 1 128)
    (W2 : Mat 128 128) (b2 : Mat 1 128) (W3 : Mat 128 35) (b3 : Mat 1 35) :
    outSplit X0 X1 X2 Wo (topRows Wa) (botRows Wa) b1 W2 b2 W3 b3
      = outJoint X0 (sideBySide X1 X2) Wo Wa b1 W2 b2 W3 b3 :=
  funext fun i => congrArg (fun h => head W2 b2 W3 b3 h (i 1)) (hiddenSplit_eq_joint Wo Wa b1 (row X0 (i 0)) X1 X2 (i 0))

end Cert.RowMlp

end
-- ==== Proof.KernelRows.lean ====
/-
  The kernel's body on one block, read at an index: entry (p, q) of the block it stores is the perceptron of
  `Proof/RowMlp.lean` applied to row `p` of the three batch blocks (observations, first and second action), with
  the first layer in its split arrangement. The changes of float format in the body are the identity on the
  extended reals, the shape casts are casts to the same shape, and each matrix product is read as a sum over the
  contracted coordinate.
-/
import proofs.«146895_g2000306996616987_pallasbulk_880_12_alg».proof.Proof.Gen.KernelIdeal.Skeleton
import proofs.«146895_g2000306996616987_pallasbulk_880_12_alg».proof.Proof.RowMlp

noncomputable section

open scoped BigOperators

namespace Cert.KernelIdeal.Rows

open Cert.KernelIdeal Cert.KernelIdeal.Gen Cert.RowMlp Cert.MatmulAt Idealize.ShloMosaic Idealize.ShloMosaic.ValueIdx

/-- The hidden activations the body hands to its last product: at (p, k), `act` of the second layer on the split
    first layer of row `p`. -/
theorem hidden_at (v0 : Vec Ideal S8192x55 .bf16) (v2 : Vec Ideal S55x128 .bf16) (v5 : Vec Ideal S8192x10 .bf16)
    (v7 : Vec Ideal S10x128 .bf16) (v11 : Vec Ideal S8192x10 .bf16) (v13 : Vec Ideal S10x128 .bf16)
    (v17 : Vec Ideal S1x128 .f32) (v21 : Vec Ideal S128x128 .bf16) (v24 : Vec Ideal S1x128 .f32)
    (p : Fin 8192) (k : Fin 128) :
    k0_pay2 (F := Ideal) v0 v2 v5 v7 v11 v13 v17 v21 v24 (ix2 p k)
      = act (affine v21 v24 (hiddenSplit v2 v7 v13 v17 (row v0 p) (row v5 p) (row v11 p)) k) := by
  unfold k0_pay2
  simp only [shapeCast_self, truncf_apply, select_apply, cmpf_apply, broadcast_apply, mulf_apply, addf_apply,
    matmul_at dot_S8192x55_S55x128_S8192x128_1_0_0_1_n_n rfl, matmul_at dot_S8192x10_S10x128_S8192x128_1_0_0_1_n_n rfl,
    matmul_at dot_S8192x128_S128x128_S8192x128_1_0_0_1_n_n rfl, broadcast_row]
  rfl

/-- The stored block at (p, q): the last affine layer on row `p` of the hidden activations. -/
theorem out_at (v32 : FVec Ideal S8192x128 .bf16) (v33 : Vec Ideal S128x35 .bf16) (v36 : Vec Ideal S1x35 .f32)
    (p : Fin 8192) (q : Fin 35) :
    k0_pay1 (F := Ideal) v32 v33 v36 (ix2 p q) = affine v33 v36 (row v32 p) q := by
  unfold k0_pay1
  simp only [shapeCast_self, addf_apply, matmul_at dot_S8192x128_S128x35_S8192x35_1_0_0_1_n_n rfl, broadcast_row]
  rfl

/-- The whole body: entry (p, q) of the stored block is the perceptron of row `p`. -/
theorem body_at (v0 : Vec Ideal S8192x55 .bf16) (v2 : Vec Ideal S55x128 .bf16) (v5 : Vec Ideal S8192x10 .bf16)
    (v7 : Vec Ideal S10x128 .bf16) (v11 : Vec Ideal S8192x10 .bf16) (v13 : Vec Ideal S10x128 .bf16)
    (v17 : Vec Ideal S1x128 .f32) (v21 : Vec Ideal S128x128 .bf16) (v24 : Vec Ideal S1x128 .f32)
    (v33 : Vec Ideal S128x35 .bf16) (v36 : Vec Ideal S1x35 .f32) (p : Fin 8192) (q : Fin 35) :
    k0_pay1 (F := Ideal) (k0_pay2 (F := Ideal) v0 v2 v5 v7 v11 v13 v17 v21 v24) v33 v36 (ix2 p q)
      = head v21 v24 v33 v36 (hiddenSplit v2 v7 v13 v17 (row v0 p) (row v5 p) (row v11 p)) q := by
  rw [out_at]
  exact congrArg (fun x => affine v33 v36 x q) (funext fun k => hidden_at v0 v2 v5 v7 v11 v13 v17 v21 v24 p k)

end Cert.KernelIdeal.Rows

end
-- ==== Proof.KernelArray.lean ====
/-
  The kernel's output array after the run, as one function of the argument arrays.

  The grid has 16 points; point `t` stages rows 8192·t … 8192·t + 8191 of the three batch arrays and the whole of
  every weight and bias array, and writes back rows 8192·t … of the output. So what point `t` writes back is block
  `t` of the row-wise perceptron of the staged arrays (`flushed_eq`); the sixteen blocks tile the output (`cover`);
  hence the output array IS that perceptron of the staged arrays (`final`). The staged arrays are written by the host
  operations before the call: changes of float format, which are the identity on the extended reals, and the two
  halves of the action weight (`staged_*`). Read through them, the output is `outSplit` of the arguments (`run`).
-/
import proofs.«146895_g2000306996616987_pallasbulk_880_12_alg».proof.Proof.Gen.KernelIdeal.Value
import proofs.«146895_g2000306996616987_pallasbulk_880_12_alg».proof.Proof.KernelRows
import Idealize.ShloMosaic.Lib.StableHlo.Run

noncomputable section

open scoped BigOperators

namespace Cert.KernelIdeal.Whole

open Cert.KernelIdeal Cert.KernelIdeal.Gen Cert.RowMlp Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block -/

/-- The block the body stores, as a function of its eleven input blocks, row by row. -/
theorem block_eq (x0 : Vec Ideal S8192x55 .bf16) (x1 : Vec Ideal S8192x10 .bf16) (x2 : Vec Ideal S8192x10 .bf16)
    (x3 : Vec Ideal S55x128 .bf16) (x4 : Vec Ideal S10x128 .bf16) (x5 : Vec Ideal S10x128 .bf16) (x6 : Vec Ideal S1x128 .f32)
    (x7 : Vec Ideal S128x128 .bf16) (x8 : Vec Ideal S1x128 .f32) (x9 : Vec Ideal S128x35 .bf16) (x10 : Vec Ideal S1x35 .f32) :
    out0_11 (F := Ideal) x0 x1 x2 x3 x4 x5 x6 x7 x8 x9 x10
      = fun j : S8192x35.Idx => head x7 x8 x9 x10 (hiddenSplit x3 x4 x5 x6 (row x0 (j 0)) (row x1 (j 0)) (row x2 (j 0))) (j 1) := by
  unfold out0_11
  rw [View.canon_unit_zero hz]
  simp only [View.ld_unit_zero (S := S8192x55) hz, View.ld_unit_zero (S := S8192x10) hz, View.ld_unit_zero (S := S55x128) hz,
    View.ld_unit_zero (S := S10x128) hz, View.ld_unit_zero (S := S1x128) hz, View.ld_unit_zero (S := S128x128) hz,
    View.ld_unit_zero (S := S128x35) hz, View.ld_unit_zero (S := S1x35) hz]
  funext j
  obtain ⟨p, q, rfl⟩ : ∃ (p : Fin 8192) (q : Fin 35), j = ix2 p q := ⟨j 0, j 1, eq_ix2 j⟩
  exact Rows.body_at x0 x3 x1 x4 x2 x5 x6 x7 x8 x9 x10 p q

/-! ## Where each window's block sits -/

/-- The printed index maps over the 16 points: the three batch windows and the output window are at block row `t`,
    column block 0; every weight and bias window is at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Row `p` of the observation block at point `t` is row 8192·t + p of the staged observation array. -/
theorem rows0 (c : Dev nD) (t : Fin cfg0.N) (p : Fin 8192) (r : Fin 131072) (hr : r.val = t.val * 8192 + p.val) :
    row (iblk m c 0 t : Mat 8192 55) p = row (V m c main_v7 : Mat 131072 55) r := by
  funext k
  show V m c main_v7 (((cfg0.win 0).blk t).view.emb (ix2 p k)) = V m c main_v7 (ix2 r k)
  refine congrArg (V m c main_v7) (funext fun a => Fin.ext ?_)
  obtain ⟨⟨e0, e1⟩, -⟩ := idx_facts t
  match a with
  | ⟨0, _⟩ => show win0_0.index t (0 : Fin 2) * 8192 + 1 * p.val = r.val; omega
  | ⟨1, _⟩ => show win0_0.index t (1 : Fin 2) * 55 + 1 * k.val = k.val; omega

/-- The same for the first action block. -/
theorem rows1 (c : Dev nD) (t : Fin cfg0.N) (p : Fin 8192) (r : Fin 131072) (hr : r.val = t.val * 8192 + p.val) :
    row (iblk m c 1 t : Mat 8192 10) p = row (V m c main_v8 : Mat 131072 10) r := by
  funext k
  show V m c main_v8 (((cfg0.win 1).blk t).view.emb (ix2 p k)) = V m c main_v8 (ix2 r k)
  refine congrArg (V m c main_v8) (funext fun a => Fin.ext ?_)
  obtain ⟨-, ⟨e0, e1⟩, -⟩ := idx_facts t
  match a with
  | ⟨0, _⟩ => show win0_1.index t (0 : Fin 2) * 8192 + 1 * p.val = r.val; omega
  | ⟨1, _⟩ => show win0_1.index t (1 : Fin 2) * 10 + 1 * k.val = k.val; omega

/-- The same for the second action block. -/
theorem rows2 (c : Dev nD) (t : Fin cfg0.N) (p : Fin 8192) (r : Fin 131072) (hr : r.val = t.val * 8192 + p.val) :
    row (iblk m c 2 t : Mat 8192 10) p = row (V m c main_v9 : Mat 131072 10) r := by
  funext k
  show V m c main_v9 (((cfg0.win 2).blk t).view.emb (ix2 p k)) = V m c main_v9 (ix2 r k)
  refine congrArg (V m c main_v9) (funext fun a => Fin.ext ?_)
  obtain ⟨-, -, ⟨e0, e1⟩, -⟩ := idx_facts t
  match a with
  | ⟨0, _⟩ => show win0_2.index t (0 : Fin 2) * 8192 + 1 * p.val = r.val; omega
  | ⟨1, _⟩ => show win0_2.index t (1 : Fin 2) * 10 + 1 * k.val = k.val; omega

/-- A weight or bias window's block is its whole staged array, at every point. -/
theorem whole3 (c : Dev nD) (t : Fin cfg0.N) : (iblk m c 3 t : Mat 55 128) = (V m c main_v0 : Mat 55 128) := by
  funext y
  show V m c main_v0 (((cfg0.win 3).blk t).view.emb y) = V m c main_v0 y
  refine congrArg (V m c main_v0) (funext fun a => Fin.ext ?_)
  obtain ⟨-, -, -, ⟨e0, e1⟩, -⟩ := idx_facts t
  match a with
  | ⟨0, _⟩ => show win0_3.index t (0 : Fin 2) * 55 + 1 * (y 0).val = (y 0).val; omega
  | ⟨1, _⟩ => show win0_3.index t (1 : Fin 2) * 128 + 1 * (y 1).val = (y 1).val; omega

theorem whole4 (c : Dev nD) (t : Fin cfg0.N) : (iblk m c 4 t : Mat 10 128) = (V m c main_v2 : Mat 10 128) := by
  funext y
  show V m c main_v2 (((cfg0.win 4).blk t).view.emb y) = V m c main_v2 y
  refine congrArg (V m c main_v2) (funext fun a => Fin.ext ?_)
  obtain ⟨-, -, -, -, ⟨e0, e1⟩, -⟩ := idx_facts t
  match a with
  | ⟨0, _⟩ => show win0_4.index t (0 : Fin 2) * 10 + 1 * (y 0).val = (y 0).val; omega
  | ⟨1, _⟩ => show win0_4.index t (1 : Fin 2) * 128 + 1 * (y 1).val = (y 1).val; omega

theorem whole5 (c : Dev nD) (t : Fin cfg0.N) : (iblk m c 5 t : Mat 10 128) = (V m c main_v4 : Mat 10 128) := by
  funext y
  show V m c main_v4 (((cfg0.win 5).blk t).view.emb y) = V m c main_v4 y
  refine congrArg (V m c main_v4) (funext fun a => Fin.ext ?_)
  obtain ⟨-, -, -, -, -, ⟨e0, e1⟩, -⟩ := idx_facts t
  match a with
  | ⟨0, _⟩ => show win0_5.index t (0 : Fin 2) * 10 + 1 * (y 0).val = (y 0).val; omega
  | ⟨1, _⟩ => show win0_5.index t (1 : Fin 2) * 128 + 1 * (y 1).val = (y 1).val; omega

theorem whole6 (c : Dev nD) (t : Fin cfg0.N) : (iblk m c 6 t : Mat 1 128) = (V m c main_arg5 : Mat 1 128) := by
  funext y
  show V m c main_arg5 (((cfg0.win 6).blk t).view.emb y) = V m c main_arg5 y
  refine congrArg (V m c main_arg5) (funext fun a => Fin.ext ?_)
  obtain ⟨-, -, -, -, -, -, ⟨e0, e1⟩, -⟩ := idx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem whole7 (c : Dev nD) (t : Fin cfg0.N) : (iblk m c 7 t : Mat 128 128) = (V m c main_v5 : Mat 128 128) := by
  funext y
  show V m c main_v5 (((cfg0.win 7).blk t).view.emb y) = V m c main_v5 y
  refine congrArg (V m c main_v5) (funext fun a => Fin.ext ?_)
  obtain ⟨-, -, -, -, -, -, -, ⟨e0, e1⟩, -⟩ := idx_facts t
  match a with
  | ⟨0, _⟩ => show win0_7.index t (0 : Fin 2) * 128 + 1 * (y 0).val = (y 0).val; omega
  | ⟨1, _⟩ => show win0_7.index t (1 : Fin 2) * 128 + 1 * (y 1).val = (y 1).val; omega

theorem whole8 (c : Dev nD) (t : Fin cfg0.N) : (iblk m c 8 t : Mat 1 128) = (V m c main_arg7 : Mat 1 128) := by
  funext y
  show V m c main_arg7 (((cfg0.win 8).blk t).view.emb y) = V m c main_arg7 y
  refine congrArg (V m c main_arg7) (funext fun a => Fin.ext ?_)
  obtain ⟨-, -, -, -, -, -, -, -, ⟨e0, e1⟩, -⟩ := idx_facts t
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem whole9 (c : Dev nD) (t : Fin cfg0.N) : (iblk m c 9 t : Mat 128 35) = (V m c main_v6 : Mat 128 35) := by
  funext y
  show V m c main_v6 (((cfg0.win 9).blk t).view.emb y) = V m c main_v6 y
  refine congrArg (V m c main_v6) (funext fun a => Fin.ext ?_)
  obtain ⟨-, -, -, -, -, -, -, -, -, ⟨e0, e1⟩, -⟩ := idx_facts t
  match a with
  | ⟨0, _⟩ => show win0_9.index t (0 : Fin 2) * 128 + 1 * (y 0).val = (y 0).val; omega
  | ⟨1, _⟩ => show win0_9.index t (1 : Fin 2) * 35 + 1 * (y 1).val = (y 1).val; omega

theorem whole10 (c : Dev nD) (t : Fin cfg0.N) : (iblk m c 10 t : Mat 1 35) = (V m c main_arg9 : Mat 1 35) := by
  funext y
  show V m c main_arg9 (((cfg0.win 10).blk t).view.emb y) = V m c main_arg9 y
  refine congrArg (V m c main_arg9) (funext fun a => Fin.ext ?_)
  obtain ⟨-, -, -, -, -, -, -, -, -, -, ⟨e0, e1⟩, -⟩ := idx_facts t
  match a with
  | ⟨0, _⟩ => show win0_10.index t (0 : Fin 2) * 1 + 1 * (y 0).val = (y 0).val; omega
  | ⟨1, _⟩ => show win0_10.index t (1 : Fin 2) * 35 + 1 * (y 1).val = (y 1).val; omega

/-! ## From blocks to the array -/

/-- The perceptron of the arrays as the region finds them. -/
abbrev staged (c : Dev nD) : Mat 131072 35 :=
  outSplit (V m c main_v7) (V m c main_v8) (V m c main_v9) (V m c main_v0) (V m c main_v2) (V m c main_v4) (V m c main_arg5)
    (V m c main_v5) (V m c main_arg7) (V m c main_v6) (V m c main_arg9)

/-- Entry (p, q) of what point `t` stores is entry (8192·t + p, q) of the perceptron of the staged arrays. -/
theorem point_eq (c : Dev nD) (t : Fin cfg0.N) (p : Fin 8192) (q : Fin 35) (i : S131072x35.Idx)
    (h0 : (i 0).val = t.val * 8192 + p.val) (h1 : (i 1).val = q.val) :
    head (iblk m c 7 t) (iblk m c 8 t) (iblk m c 9 t) (iblk m c 10 t)
        (hiddenSplit (iblk m c 3 t) (iblk m c 4 t) (iblk m c 5 t) (iblk m c 6 t) (row (iblk m c 0 t) p)
          (row (iblk m c 1 t) p) (row (iblk m c 2 t) p)) q
      = staged m c i := by
  rw [whole3, whole4, whole5, whole6, whole7, whole8, whole9, whole10, rows0 m c t p (i 0) h0, rows1 m c t p (i 0) h0,
    rows2 m c t p (i 0) h0]
  have hq : q = i 1 := Fin.ext h1.symm
  rw [hq]
  rfl

/-- WHAT POINT `t` WRITES BACK is block `t` of the perceptron of the staged arrays. -/
theorem flushed_eq (c : Dev nD) (t : Fin cfg0.N) :
    (dats m 0 c).flushed 11 t = ((cfg0.win 11).blk t).view.read (Elt Ideal) (staged m c) := by
  rw [Value.flushed11, block_eq]
  funext j
  obtain ⟨-, -, -, -, -, -, -, -, -, -, -, ⟨e0, e1⟩⟩ := idx_facts t
  refine point_eq m c t (j 0) (j 1) (((cfg0.win 11).blk t).view.emb j) ?_ ?_
  · show win0_11.index t (0 : Fin 2) * 8192 + 1 * (j 0).val = t.val * 8192 + (j 0).val; omega
  · show win0_11.index t (1 : Fin 2) * 35 + 1 * (j 1).val = (j 1).val; omega

/-- An index of the output array is in point `t`'s block iff each coordinate is in the block's range on its axis. -/
theorem mem_blk (t : Fin cfg0.N) (i : S131072x35.Idx) :
    i ∈ ((cfg0.win 11).blk t).view.set ↔ ∀ a : Fin 2, win0_11.index t a * S8192x35.size a ≤ (i a).val ∧ (i a).val < win0_11.index t a * S8192x35.size a + S8192x35.size a := by
  show i ∈ ((View.whole main_v10).slice (win0_11.rect t)).set ↔ _
  rw [View.set_slice_whole, Rect.mem_set_unit]
  exact Iff.rfl

/-- Every block row 0 … 15 is some point's. -/
theorem idx_onto : ∀ q0 : Fin 16, ∃ t : Fin cfg0.N, win0_11.index t = ![q0.val, 0] :=
  (by decide +kernel : ∀ q0 : Fin 16, ∃ t : Fin grid0.N, win0_11.index t = ![q0.val, 0])

/-- The sixteen blocks tile the output: row `r` is in the block of the point at block row `r / 8192`. -/
theorem cover (i : S131072x35.Idx) : ∃ t : Fin cfg0.N, (cfg0.win 11).flush t = true ∧ i ∈ ((cfg0.win 11).blk t).view.set := by
  have hi0 : (i 0).val < 131072 := (i 0).isLt
  have hi1 : (i 1).val < 35 := (i 1).isLt
  obtain ⟨t, ht⟩ := idx_onto ⟨(i 0).val / 8192, by omega⟩
  have q0 : win0_11.index t (0 : Fin 2) = (i 0).val / 8192 := congrFun ht 0
  have q1 : win0_11.index t (1 : Fin 2) = 0 := congrFun ht 1
  refine ⟨t, flush0_11 t, ?_⟩
  rw [mem_blk]
  intro a
  match a with
  | ⟨0, _⟩ => show win0_11.index t (0 : Fin 2) * 8192 ≤ (i 0).val ∧ (i 0).val < win0_11.index t (0 : Fin 2) * 8192 + 8192; omega
  | ⟨1, _⟩ => show win0_11.index t (1 : Fin 2) * 35 ≤ (i 1).val ∧ (i 1).val < win0_11.index t (1 : Fin 2) * 35 + 35; omega

/-- THE OUTPUT ARRAY after the run is the perceptron of the staged arrays. -/
theorem final (c : Dev nD) : (dats m 0 c).arrAt 11 cfg0.N = staged m c :=
  (dats m 0 c).arrAt_eq_of_cover 11 (staged m c) (fun t _ => flushed_eq m c t) cover

/-! ## The staged arrays, read through the host operations before the call -/

theorem staged_obs (c : Dev nD) : (V m c main_v7 : Mat 131072 55) = m ((c : Thread nD τ).loc main_arg0) := by
  dsimp only [V, hostOps0]; after_results; rfl
theorem staged_a1 (c : Dev nD) : (V m c main_v8 : Mat 131072 10) = m ((c : Thread nD τ).loc main_arg1) := by
  dsimp only [V, hostOps0]; after_results; rfl
theorem staged_a2 (c : Dev nD) : (V m c main_v9 : Mat 131072 10) = m ((c : Thread nD τ).loc main_arg2) := by
  dsimp only [V, hostOps0]; after_results; rfl
theorem staged_w1o (c : Dev nD) : (V m c main_v0 : Mat 55 128) = m ((c : Thread nD τ).loc main_arg3) := by
  dsimp only [V, hostOps0]; after_results; rfl
theorem staged_w2 (c : Dev nD) : (V m c main_v5 : Mat 128 128) = m ((c : Thread nD τ).loc main_arg6) := by
  dsimp only [V, hostOps0]; after_results; rfl
theorem staged_w3 (c : Dev nD) : (V m c main_v6 : Mat 128 35) = m ((c : Thread nD τ).loc main_arg8) := by
  dsimp only [V, hostOps0]; after_results; rfl

/-- The first staged action weight is the upper half of the action weight argument. -/
theorem staged_top (c : Dev nD) : (V m c main_v2 : Mat 10 128) = topRows (m ((c : Thread nD τ).loc main_arg4)) := by
  have e : (V m c main_v2 : Mat 10 128)
      = extractStridedSlice S10x128 ![0, 0] (m ((c : Thread nD τ).loc main_arg4)) slices_S20x128_S10x128_0_0 := by
    dsimp only [V, hostOps0]; after_results; rfl
  rw [e]
  funext y
  refine extractStridedSlice_apply ![0, 0] _ slices_S20x128_S10x128_0_0 y (ix2 (lo (y 0)) (y 1)) fun a => ?_
  match a with
  | ⟨0, _⟩ => show (y 0).val = 0 + (y 0).val; omega
  | ⟨1, _⟩ => show (y 1).val = 0 + (y 1).val; omega

/-- The second staged action weight is the lower half. -/
theorem staged_bot (c : Dev nD) : (V m c main_v4 : Mat 10 128) = botRows (m ((c : Thread nD τ).loc main_arg4)) := by
  have e : (V m c main_v4 : Mat 10 128)
      = extractStridedSlice S10x128 ![10, 0] (m ((c : Thread nD τ).loc main_arg4)) slices_S20x128_S10x128_10_0 := by
    dsimp only [V, hostOps0]; after_results; rfl
  rw [e]
  funext y
  refine extractStridedSlice_apply ![10, 0] _ slices_S20x128_S10x128_10_0 y (ix2 (hi (y 0)) (y 1)) fun a => ?_
  match a with
  | ⟨0, _⟩ => show 10 + (y 0).val = 10 + (y 0).val; rfl
  | ⟨1, _⟩ => show (y 1).val = 0 + (y 1).val; omega

/-- So the perceptron of the staged arrays is `outSplit` of the arguments, the action weight by its two halves. -/
theorem staged_eq (c : Dev nD) :
    staged m c = outSplit (m ((c : Thread nD τ).loc main_arg0)) (m ((c : Thread nD τ).loc main_arg1)) (m ((c : Thread nD τ).loc main_arg2))
      (m ((c : Thread nD τ).loc main_arg3)) (topRows (m ((c : Thread nD τ).loc main_arg4))) (botRows (m ((c : Thread nD τ).loc main_arg4)))
      (m ((c : Thread nD τ).loc main_arg5)) (m ((c : Thread nD τ).loc main_arg6)) (m ((c : Thread nD τ).loc main_arg7))
      (m ((c : Thread nD τ).loc main_arg8)) (m ((c : Thread nD τ).loc main_arg9)) := by
  unfold staged
  rw [staged_obs, staged_a1, staged_a2, staged_w1o, staged_top, staged_bot, staged_w2, staged_w3, V_main_arg5, V_main_arg7, V_main_arg9]

/-! ## The run, read -/

/-- Every weakly fair execution ends with the output array at `outSplit` of the arguments and the arguments unchanged. -/
theorem run : θ_run defs (onTc (τ := τ) (main (F := Ideal))) ⟨m, fun _ => 0, ρ⟩ fun r => ∀ c : Dev nD,
      r.2.mem ((c : Thread nD τ).loc main_v10)
        = outSplit (m ((c : Thread nD τ).loc main_arg0)) (m ((c : Thread nD τ).loc main_arg1)) (m ((c : Thread nD τ).loc main_arg2))
            (m ((c : Thread nD τ).loc main_arg3)) (topRows (m ((c : Thread nD τ).loc main_arg4))) (botRows (m ((c : Thread nD τ).loc main_arg4)))
            (m ((c : Thread nD τ).loc main_arg5)) (m ((c : Thread nD τ).loc main_arg6)) (m ((c : Thread nD τ).loc main_arg7))
            (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (staged_eq m c)), (h c).2⟩) (Value.run_blocks m ρ)

end Cert.KernelIdeal.Whole

end
-- ==== Proof.RefRows.lean ====
/-
  The reference's body on one block, read at an index: entry (p, q) of the block it stores is the perceptron of
  `Proof/RowMlp.lean` applied to row `p` of the observation block and of the joint action block, with the first
  layer in its joint arrangement. Each matrix product is read as a sum over the contracted coordinate.
-/
import proofs.«146895_g2000306996616987_pallasbulk_880_12_alg».proof.Proof.Gen.ReferenceIdeal.Skeleton
import proofs.«146895_g2000306996616987_pallasbulk_880_12_alg».proof.Proof.RowMlp

noncomputable section

open scoped BigOperators

namespace Cert.ReferenceIdeal.Rows

open Cert.ReferenceIdeal Cert.ReferenceIdeal.Gen Cert.RowMlp Cert.MatmulAt Idealize.ShloMosaic Idealize.ShloMosaic.ValueIdx

/-- The whole body: entry (p, q) of the stored block is the perceptron of row `p`. -/
theorem body_at (v0 : Vec Ideal S2048x55 .f32) (v1 : Vec Ideal S55x128 .f32) (v3 : Vec Ideal S2048x20 .f32)
    (v5 : Vec Ideal S20x128 .f32) (v8 : Vec Ideal S1x128 .f32) (v11 : Vec Ideal S128x128 .f32)
    (v13 : Vec Ideal S1x128 .f32) (v21 : Vec Ideal S128x35 .f32) (v23 : Vec Ideal S1x35 .f32)
    (p : Fin 2048) (q : Fin 35) :
    k0_pay1 (F := Ideal) v0 v1 v3 v5 v8 v11 v13 v21 v23 (ix2 p q)
      = head v11 v13 v21 v23 (hiddenJoint v1 v5 v8 (row v0 p) (row v3 p)) q := by
  unfold k0_pay1
  simp only [shapeCast_self, select_apply, cmpf_apply, broadcast_apply, mulf_apply, addf_apply,
    matmul_at dot_S2048x55_S55x128_S2048x128_1_0_0_1_n_n rfl, matmul_at dot_S2048x20_S20x128_S2048x128_1_0_0_1_n_n rfl,
    matmul_at dot_S2048x128_S128x128_S2048x128_1_0_0_1_n_n rfl, matmul_at dot_S2048x128_S128x35_S2048x35_1_0_0_1_n_n rfl,
    broadcast_row]
  rfl

end Cert.ReferenceIdeal.Rows

end
-- ==== Proof.RefArray.lean ====
/-
  The reference's output array after the run, as one function of the argument arrays.

  The grid has 64 points; point `t` stages rows 2048·t … 2048·t + 2047 of the observation array and of the joint
  action array, and the whole of every weight and bias array, and writes back rows 2048·t … of the output. So what
  point `t` writes back is block `t` of the row-wise perceptron of the staged arrays (`flushed_eq`); the 64 blocks
  tile the output (`cover`); hence the output array IS that perceptron (`final`). The one host operation before
  the call lays the two action arrays side by side (`staged_actions`). Read through it, the output is `outJoint`
  of the arguments (`run`).
-/
import proofs.«146895_g2000306996616987_pallasbulk_880_12_alg».proof.Proof.Gen.ReferenceIdeal.Value
import proofs.«146895_g2000306996616987_pallasbulk_880_12_alg».proof.Proof.RefRows
import Idealize.ShloMosaic.Lib.StableHlo.Run

noncomputable section

open scoped BigOperators

namespace Cert.ReferenceIdeal.Whole

open Cert.ReferenceIdeal Cert.ReferenceIdeal.Gen Cert.RowMlp Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One block -/

/-- The block the body stores, as a function of its nine input blocks, row by row. -/
theorem block_eq (x0 : Vec Ideal S2048x55 .f32) (x1 : Vec Ideal S2048x20 .f32) (x2 : Vec Ideal S55x128 .f32)
    (x3 : Vec Ideal S20x128 .f32) (x4 : Vec Ideal S1x128 .f32) (x5 : Vec Ideal S128x128 .f32) (x6 : Vec Ideal S1x128 .f32)
    (x7 : Vec Ideal S128x35 .f32) (x8 : Vec Ideal S1x35 .f32) :
    out0_9 (F := Ideal) x0 x1 x2 x3 x4 x5 x6 x7 x8
      = fun j : S2048x35.Idx => head x5 x6 x7 x8 (hiddenJoint x2 x3 x4 (row x0 (j 0)) (row x1 (j 0))) (j 1) := by
  unfold out0_9
  rw [View.canon_unit_zero hz]
  simp only [View.ld_unit_zero (S := S2048x55) hz, View.ld_unit_zero (S := S2048x20) hz, View.ld_unit_zero (S := S55x128) hz,
    View.ld_unit_zero (S := S20x128) hz, View.ld_unit_zero (S := S1x128) hz, View.ld_unit_zero (S := S128x128) hz,
    View.ld_unit_zero (S := S128x35) hz, View.ld_unit_zero (S := S1x35) hz]
  funext j
  obtain ⟨p, q, rfl⟩ : ∃ (p : Fin 2048) (q : Fin 35), j = ix2 p q := ⟨j 0, j 1, eq_ix2 j⟩
  exact Rows.body_at x0 x2 x1 x3 x4 x5 x6 x7 x8 p q

/-! ## Where each window's block sits -/

/-- The printed index maps over the 64 points: the two batch windows and the output window are at block row `t`,
    column block 0; every weight and bias window is at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row `p` of the observation block at point `t` is row 2048·t + p of the observation array. -/
theorem rows0 (c : Dev nD) (t : Fin cfg0.N) (p : Fin 2048) (r : Fin 131072) (hr : r.val = t.val * 2048 + p.val) :
    row (iblk m c 0 t : Mat 2048 55) p = row (V m c main_arg0 : Mat 131072 55) r := by
  funext k
  show V m c main_arg0 (((cfg0.win 0).blk t).view.emb (ix2 p k)) = V m c main_arg0 (ix2 r k)
  refine congrArg (V m c main_arg0) (funext fun a => Fin.ext ?_)
  obtain ⟨⟨e0, e1⟩, -⟩ := idx_facts t
  match a with
  | ⟨0, _⟩ => show win0_0.index t (0 : Fin 2) * 2048 + 1 * p.val = r.val; omega
  | ⟨1, _⟩ => show win0_0.index t (1 : Fin 2) * 55 + 1 * k.val = k.val; omega

/-- The same for the joint action block. -/
theorem rows1 (c : Dev nD) (t : Fin cfg0.N) (p : Fin 2048) (r : Fin 131072) (hr : r.val = t.val * 2048 + p.val) :
    row (iblk m c 1 t : Mat 2048 20) p = row (V m c main_v0 : Mat 131072 20) r := by
  funext k
  show V m c main_v0 (((cfg0.win 1).blk t).view.emb (ix2 p k)) = V m c main_v0 (ix2 r k)
  refine congrArg (V m c main_v0) (funext fun a => Fin.ext ?_)
  obtain ⟨-, ⟨e0, e1⟩, -⟩ := idx_facts t
  match a with
  | ⟨0, _⟩ => show win0_1.index t (0 : Fin 2) * 2048 + 1 * p.val = r.val; omega
  | ⟨1, _⟩ => show win0_1.index t (1 : Fin 2) * 20 + 1 * k.val = k.val; omega

/-- A weight or bias window's block is its whole array, at every point. -/
theorem whole2 (c : Dev nD) (t : Fin cfg0.N) : (iblk m c 2 t : Mat 55 128) = (V m c main_arg3 : Mat 55 128) := by
  funext y
  show V m c main_arg3 (((cfg0.win 2).blk t).view.emb y) = V m c main_arg3 y
  refine congrArg (V m c main_arg3) (funext fun a => Fin.ext ?_)
  obtain ⟨-, -, ⟨e0, e1⟩, -⟩ := idx_facts t
  match a with
  | ⟨0, _⟩ => show win0_2.index t (0 : Fin 2) * 55 + 1 * (y 0).val = (y 0).val; omega
  | ⟨1, _⟩ => show win0_2.index t (1 : Fin 2) * 128 + 1 * (y 1).val = (y 1).val; omega

theorem whole3 (c : Dev nD) (t : Fin cfg0.N) : (iblk m c 3 t : Mat 20 128) = (V m c main_arg4 : Mat 20 128) := by
  funext y
  show V m c main_arg4 (((cfg0.win 3).blk t).view.emb y) = V m c main_arg4 y
  refine congrArg (V m c main_arg4) (funext fun a => Fin.ext ?_)
  obtain ⟨-, -, -, ⟨e0, e1⟩, -⟩ := idx_facts t
  match a with
  | ⟨0, _⟩ => show win0_3.index t (0 : Fin 2) * 20 + 1 * (y 0).val = (y 0).val; omega
  | ⟨1, _⟩ => show win0_3.index t (1 : Fin 2) * 128 + 1 * (y 1).val = (y 1).val; omega

theorem whole4 (c : Dev nD) (t : Fin cfg0.N) : (iblk m c 4 t : Mat 1 128) = (V m c main_arg5 : Mat 1 128) := by
  funext y
  show V m c main_arg5 (((cfg0.win 4).blk t).view.emb y) = V m c main_arg5 y
  refine congrArg (V m c main_arg5) (funext fun a => Fin.ext ?_)
  obtain ⟨-, -, -, -, ⟨e0, e1⟩, -⟩ := idx_facts t
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem whole5 (c : Dev nD) (t : Fin cfg0.N) : (iblk m c 5 t : Mat 128 128) = (V m c main_arg6 : Mat 128 128) := by
  funext y
  show V m c main_arg6 (((cfg0.win 5).blk t).view.emb y) = V m c main_arg6 y
  refine congrArg (V m c main_arg6) (funext fun a => Fin.ext ?_)
  obtain ⟨-, -, -, -, -, ⟨e0, e1⟩, -⟩ := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem whole6 (c : Dev nD) (t : Fin cfg0.N) : (iblk m c 6 t : Mat 1 128) = (V m c main_arg7 : Mat 1 128) := by
  funext y
  show V m c main_arg7 (((cfg0.win 6).blk t).view.emb y) = V m c main_arg7 y
  refine congrArg (V m c main_arg7) (funext fun a => Fin.ext ?_)
  obtain ⟨-, -, -, -, -, -, ⟨e0, e1⟩, -⟩ := idx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem whole7 (c : Dev nD) (t : Fin cfg0.N) : (iblk m c 7 t : Mat 128 35) = (V m c main_arg8 : Mat 128 35) := by
  funext y
  show V m c main_arg8 (((cfg0.win 7).blk t).view.emb y) = V m c main_arg8 y
  refine congrArg (V m c main_arg8) (funext fun a => Fin.ext ?_)
  obtain ⟨-, -, -, -, -, -, -, ⟨e0, e1⟩, -⟩ := idx_facts t
  match a with
  | ⟨0, _⟩ => show win0_7.index t (0 : Fin 2) * 128 + 1 * (y 0).val = (y 0).val; omega
  | ⟨1, _⟩ => show win0_7.index t (1 : Fin 2) * 35 + 1 * (y 1).val = (y 1).val; omega

theorem whole8 (c : Dev nD) (t : Fin cfg0.N) : (iblk m c 8 t : Mat 1 35) = (V m c main_arg9 : Mat 1 35) := by
  funext y
  show V m c main_arg9 (((cfg0.win 8).blk t).view.emb y) = V m c main_arg9 y
  refine congrArg (V m c main_arg9) (funext fun a => Fin.ext ?_)
  obtain ⟨-, -, -, -, -, -, -, -, ⟨e0, e1⟩, -⟩ := idx_facts t
  match a with
  | ⟨0, _⟩ => show win0_8.index t (0 : Fin 2) * 1 + 1 * (y 0).val = (y 0).val; omega
  | ⟨1, _⟩ => show win0_8.index t (1 : Fin 2) * 35 + 1 * (y 1).val = (y 1).val; omega

/-! ## From blocks to the array -/

/-- The perceptron of the arrays as the region finds them. -/
abbrev staged (c : Dev nD) : Mat 131072 35 :=
  outJoint (V m c main_arg0) (V m c main_v0) (V m c main_arg3) (V m c main_arg4) (V m c main_arg5) (V m c main_arg6)
    (V m c main_arg7) (V m c main_arg8) (V m c main_arg9)

/-- Entry (p, q) of what point `t` stores is entry (2048·t + p, q) of the perceptron of the staged arrays. -/
theorem point_eq (c : Dev nD) (t : Fin cfg0.N) (p : Fin 2048) (q : Fin 35) (i : S131072x35.Idx)
    (h0 : (i 0).val = t.val * 2048 + p.val) (h1 : (i 1).val = q.val) :
    head (iblk m c 5 t) (iblk m c 6 t) (iblk m c 7 t) (iblk m c 8 t)
        (hiddenJoint (iblk m c 2 t) (iblk m c 3 t) (iblk m c 4 t) (row (iblk m c 0 t) p) (row (iblk m c 1 t) p)) q
      = staged m c i := by
  rw [whole2, whole3, whole4, whole5, whole6, whole7, whole8, rows0 m c t p (i 0) h0, rows1 m c t p (i 0) h0]
  have hq : q = i 1 := Fin.ext h1.symm
  rw [hq]
  rfl

/-- WHAT POINT `t` WRITES BACK is block `t` of the perceptron of the staged arrays. -/
theorem flushed_eq (c : Dev nD) (t : Fin cfg0.N) :
    (dats m 0 c).flushed 9 t = ((cfg0.win 9).blk t).view.read (Elt Ideal) (staged m c) := by
  rw [Value.flushed9, block_eq]
  funext j
  obtain ⟨-, -, -, -, -, -, -, -, -, ⟨e0, e1⟩⟩ := idx_facts t
  refine point_eq m c t (j 0) (j 1) (((cfg0.win 9).blk t).view.emb j) ?_ ?_
  · show win0_9.index t (0 : Fin 2) * 2048 + 1 * (j 0).val = t.val * 2048 + (j 0).val; omega
  · show win0_9.index t (1 : Fin 2) * 35 + 1 * (j 1).val = (j 1).val; omega

/-- An index of the output array is in point `t`'s block iff each coordinate is in the block's range on its axis. -/
theorem mem_blk (t : Fin cfg0.N) (i : S131072x35.Idx) :
    i ∈ ((cfg0.win 9).blk t).view.set ↔ ∀ a : Fin 2, win0_9.index t a * S2048x35.size a ≤ (i a).val ∧ (i a).val < win0_9.index t a * S2048x35.size a + S2048x35.size a := by
  show i ∈ ((View.whole main_v1).slice (win0_9.rect t)).set ↔ _
  rw [View.set_slice_whole, Rect.mem_set_unit]
  exact Iff.rfl

/-- Every block row 0 … 63 is some point's. -/
theorem idx_onto : ∀ q0 : Fin 64, ∃ t : Fin cfg0.N, win0_9.index t = ![q0.val, 0] :=
  (by decide +kernel : ∀ q0 : Fin 64, ∃ t : Fin grid0.N, win0_9.index t = ![q0.val, 0])

/-- The 64 blocks tile the output: row `r` is in the block of the point at block row `r / 2048`. -/
theorem cover (i : S131072x35.Idx) : ∃ t : Fin cfg0.N, (cfg0.win 9).flush t = true ∧ i ∈ ((cfg0.win 9).blk t).view.set := by
  have hi0 : (i 0).val < 131072 := (i 0).isLt
  have hi1 : (i 1).val < 35 := (i 1).isLt
  obtain ⟨t, ht⟩ := idx_onto ⟨(i 0).val / 2048, by omega⟩
  have q0 : win0_9.index t (0 : Fin 2) = (i 0).val / 2048 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 35 ≤ (i 1).val ∧ (i 1).val < win0_9.index t (1 : Fin 2) * 35 + 35; omega

/-- THE OUTPUT ARRAY after the run is the perceptron of the staged arrays. -/
theorem final (c : Dev nD) : (dats m 0 c).arrAt 9 cfg0.N = staged m c :=
  (dats m 0 c).arrAt_eq_of_cover 9 (staged m c) (fun t _ => flushed_eq m c t) cover

/-! ## The joint action array, read through the host operation before the call -/

/-- The staged joint action array is the two action arguments side by side. -/
theorem staged_actions (c : Dev nD) :
    (V m c main_v0 : Mat 131072 20) = sideBySide (m ((c : Thread nD τ).loc main_arg1)) (m ((c : Thread nD τ).loc main_arg2)) := by
  have e : (V m c main_v0 : Mat 131072 20)
      = concatenate S131072x20 1 [⟨S131072x10, m ((c : Thread nD τ).loc main_arg1)⟩, ⟨S131072x10, m ((c : Thread nD τ).loc main_arg2)⟩]
          concatenates_S131072x10_S131072x10_S131072x20_d1 := by
    dsimp only [V, hostOps0]; after_results
  rw [e]
  funext y
  have h2 : (y 1).val < 20 := idx2_lt1 y
  show _ = joinRow (row (m ((c : Thread nD τ).loc main_arg1)) (y 0)) (row (m ((c : Thread nD τ).loc main_arg2)) (y 0)) (y 1)
  unfold joinRow
  by_cases h : (y 1).val < 10
  · rw [dif_pos h]
    exact concatenate_pair_apply_left (t := S131072x20) (s₁ := S131072x10) (s₂ := S131072x10) (1 : Fin 2) _ _
      concatenates_S131072x10_S131072x10_S131072x20_d1 y rfl (ix2 (y 0) (⟨(y 1).val, h⟩ : Fin 10))
      (fun b => match b with | ⟨0, _⟩ => rfl | ⟨1, _⟩ => rfl)
  · rw [dif_neg h]
    exact concatenate_pair_apply_right (t := S131072x20) (s₁ := S131072x10) (s₂ := S131072x10) (1 : Fin 2) _ _
      concatenates_S131072x10_S131072x10_S131072x20_d1 y rfl rfl (ix2 (y 0) (⟨(y 1).val - 10, by omega⟩ : Fin 10))
      (fun b => match b with | ⟨0, _⟩ => fun _ => rfl | ⟨1, _⟩ => fun hb => absurd rfl hb)
      (by show (y 1).val - 10 + 10 = (y 1).val; omega)

/-- So the perceptron of the staged arrays is `outJoint` of the arguments, the two action arrays side by side. -/
theorem staged_eq (c : Dev nD) :
    staged m c = outJoint (m ((c : Thread nD τ).loc main_arg0))
      (sideBySide (m ((c : Thread nD τ).loc main_arg1)) (m ((c : Thread nD τ).loc main_arg2)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  unfold staged
  rw [staged_actions, V_main_arg0, V_main_arg3, V_main_arg4, V_main_arg5, V_main_arg6, V_main_arg7, V_main_arg8, V_main_arg9]

/-! ## The run, read -/

/-- Every weakly fair execution ends with the output array at `outJoint` of the arguments and the arguments unchanged. -/
theorem run : θ_run defs (onTc (τ := τ) (main (F := Ideal))) ⟨m, fun _ => 0, ρ⟩ fun r => ∀ c : Dev nD,
      r.2.mem ((c : Thread nD τ).loc main_v1)
        = outJoint (m ((c : Thread nD τ).loc main_arg0))
            (sideBySide (m ((c : Thread nD τ).loc main_arg1)) (m ((c : Thread nD τ).loc main_arg2)))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (staged_eq m c)), (h c).2⟩) (Value.run_blocks m ρ)

end Cert.ReferenceIdeal.Whole

end
-- ==== Proof.lean ====
/-
  A fused three-layer perceptron on a batch of 131072 rows — `Linear(75 → 128)`, `Linear(128 → 128)`, a leaky
  rectifier, `Linear(128 → 35)` — against a reference that is itself a blocked kernel of the same perceptron.

  The two programs differ in three ways, none of which the extended reals see. The kernel changes its operands to a
  sixteen-bit float format before each product, which is the identity at the ideal values. It walks the batch in
  16 blocks of 8192 rows where the reference walks it in 64 blocks of 2048; every output row depends on its own
  input row only, so both output arrays are ONE row-wise function of the arguments (`Proof/KernelArray.lean`,
  `Proof/RefArray.lean`: what each block writes back, the blocks' cover, the host operations before the call). And
  the kernel keeps the two 10-feature action inputs apart, multiplying each by its own half of the 20 × 128 action
  weight, where the reference lays them side by side and multiplies once: a sum over twenty features is the sum
  over the first ten plus the sum over the last ten, and addition associates (`Proof/RowMlp.lean`,
  `outSplit_eq_outJoint`). No step needs the inputs finite. The leaky rectifier's constant is the same word on
  both sides and is never evaluated.

  The three frames are the generated ones; the idealization rewrote nothing, so `preserves` is `True`.
-/
import proofs.«146895_g2000306996616987_pallasbulk_880_12_alg».proof.Defs
import proofs.«146895_g2000306996616987_pallasbulk_880_12_alg».proof.Proof.Gen.Kernel
import proofs.«146895_g2000306996616987_pallasbulk_880_12_alg».proof.Proof.Gen.Kernel.Skeleton
import proofs.«146895_g2000306996616987_pallasbulk_880_12_alg».proof.Proof.Gen.Kernel.Launch
import proofs.«146895_g2000306996616987_pallasbulk_880_12_alg».proof.Proof.Gen.Kernel.Points
import proofs.«146895_g2000306996616987_pallasbulk_880_12_alg».proof.Proof.Gen.Kernel.Frame
import proofs.«146895_g2000306996616987_pallasbulk_880_12_alg».proof.Proof.Gen.KernelIdeal
import proofs.«146895_g2000306996616987_pallasbulk_880_12_alg».proof.Proof.Gen.KernelIdeal.Skeleton
import proofs.«146895_g2000306996616987_pallasbulk_880_12_alg».proof.Proof.Gen.KernelIdeal.Launch
import proofs.«146895_g2000306996616987_pallasbulk_880_12_alg».proof.Proof.Gen.KernelIdeal.Points
import proofs.«146895_g2000306996616987_pallasbulk_880_12_alg».proof.Proof.Gen.KernelIdeal.Frame
import proofs.«146895_g2000306996616987_pallasbulk_880_12_alg».proof.Proof.Gen.ReferenceIdeal
import proofs.«146895_g2000306996616987_pallasbulk_880_12_alg».proof.Proof.Gen.ReferenceIdeal.Skeleton
import proofs.«146895_g2000306996616987_pallasbulk_880_12_alg».proof.Proof.Gen.ReferenceIdeal.Launch
import proofs.«146895_g2000306996616987_pallasbulk_880_12_alg».proof.Proof.Gen.ReferenceIdeal.Points
import proofs.«146895_g2000306996616987_pallasbulk_880_12_alg».proof.Proof.Gen.ReferenceIdeal.Frame
import proofs.«146895_g2000306996616987_pallasbulk_880_12_alg».proof.Proof.Gen.Pre_finite_inputs
import proofs.«146895_g2000306996616987_pallasbulk_880_12_alg».proof.Proof.KernelArray
import proofs.«146895_g2000306996616987_pallasbulk_880_12_alg».proof.Proof.RefArray
import Idealize.ShloMosaic.Adequacy
import Idealize.ShloMosaic.Init

noncomputable section

namespace Cert.Proof

open Idealize.ShloMosaic Idealize.SL.Sem Cert.RowMlp

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- At the ideal values the kernel's output array ends at the row-wise perceptron with the first layer split and
    the reference's at the one with the first layer joint, of arguments that agree: one function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨h0, h1, h2, h3, h4, h5, h6, h7, h8, h9⟩ := hagree c
  rw [h0, h1, h2, h3, h4, h5, h6, h7, h8, h9]
  exact (outSplit_eq_outJoint _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
